-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x128 : Shape := ⟨2, ![64, 128]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x64 .f32) (main_arg1 : FVec F S8192x8192 .f32) (main_arg2 : FVec F S64x128 .f32) (main_arg3 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x64 : Shape := ⟨2, ![8192, 64]⟩
abbrev S8192x8192 : Shape := ⟨2, ![8192, 8192]⟩
abbrev S64x128 : Shape := ⟨2, ![64, 128]⟩
abbrev S64 : Shape := ⟨1, ![64]⟩
abbrev S1x64 : Shape := ⟨2, ![1, 64]⟩
abbrev S512x64 : Shape := ⟨2, ![512, 64]⟩
abbrev S256x8192 : Shape := ⟨2, ![256, 8192]⟩
abbrev S64x64 : Shape := ⟨2, ![64, 64]⟩
abbrev S256x64 : Shape := ⟨2, ![256, 64]⟩

abbrev nBuf : Space → Nat
  | .hbm => 6
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S8192x64, .f32⟩
  | .local _ .vmem, ⟨0, _⟩ => ⟨S512x64, .f32⟩
  | .local _ .vmem, ⟨1, _⟩ => ⟨S512x64, .f32⟩
  | .local _ .vmem, ⟨2, _⟩ => ⟨S256x8192, .f32⟩
  | .local _ .vmem, ⟨3, _⟩ => ⟨S256x8192, .f32⟩
  | .local _ .vmem, ⟨4, _⟩ => ⟨S256x8192, .f32⟩
  | .local _ .vmem, ⟨5, _⟩ => ⟨S256x8192, .f32⟩
  | .local _ .vmem, ⟨6, _⟩ => ⟨S8192x64, .f32⟩
  | .local _ .vmem, ⟨7, _⟩ => ⟨S64x128, .f32⟩
  | .local _ .vmem, ⟨8, _⟩ => ⟨S1x64, .f32⟩
  | .local _ .vmem, ⟨9, _⟩ => ⟨S512x64, .f32⟩
  | .local _ .vmem, ⟨10, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x128_S64x64_0_0 : ∀ a, (![0, 0] : Fin 2 → Nat) a + S64x64.size a ≤ S64x128.size a
  h_S64x64 : 0 < S64x64.numel
  inb_S64x128_S64x64_0_64 : ∀ a, (![0, 64] : Fin 2 → Nat) a + S64x64.size a ≤ S64x128.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S256x8192_S256x8192_0_0 : ∀ a, (![0, 0] : Fin 2 → Nat) a + S256x8192.size a ≤ S256x8192.size a
  h_S256x8192 : 0 < S256x8192.numel
  inb_S512x64_S256x64_0_0 : ∀ a, (![0, 0] : Fin 2 → Nat) a + S256x64.size a ≤ S512x64.size a
  h_S256x64 : 0 < S256x64.numel
  broadcasts_S1x64_S256x64 : S1x64.Broadcasts S256x64
  inb_S512x64_S256x64_256_0 : ∀ a, (![256, 0] : Fin 2 → Nat) a + S256x64.size a ≤ S512x64.size a
  dot_S256x8192_S8192x64_S256x64_1_0_0_1_n_n_wf : DotDims.WF S256x8192 S8192x64 S256x64 [1] [0] [0] [1] [] []
  dot_S256x64_S64x64_S256x64_1_1_0_0_n_n_wf : DotDims.WF S256x64 S64x64 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .f32 = 32 ∨ (Rect.block (s := S8192x64) S8192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S8192x64.size a
  hwx0_6 : ∀ i : grid0.Coords, EltTy.bits .f32 = 32 ∨ (Rect.block (s := S8192x64) S512x64.size (cc0_transform_6 i) (hinb0_6 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S64x128 : Shape := ⟨2, ![64, 128]⟩
abbrev S64 : Shape := ⟨1, ![64]⟩
abbrev S8192x128 : Shape := ⟨2, ![8192, 128]⟩
abbrev S128x64 : Shape := ⟨2, ![128, 64]⟩
abbrev S1x64 : Shape := ⟨2, ![1, 64]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S8192x64, .f32⟩
  | .hbm, ⟨5, _⟩ => ⟨S8192x128, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  concatenates_S8192x64_S8192x64_S8192x128_d1 : Shape.Concatenates [S8192x64, S8192x64] S8192x128 1
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  dot_S8192x8192_S8192x64_S8192x64_1_0_0_1_n_n_wf : DotDims.WF S8192x8192 S8192x64 S8192x64 [1] [0] [0] [1] [] []
  dot_S8192x128_S128x64_S8192x64_1_0_0_1_n_n_wf : DotDims.WF S8192x128 S128x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.LibSharedFrame.lean ====
/-
  The frame run of a one-region pipeline program whose input windows may SHARE arrays: one array of @main handed to
  the kernel through several input windows, each window reading its own blocks of it.

  The run is the same as for distinct arrays but for one thing: at the region's entry the buffers behind the
  windows' arrays are held once each, whole, at the full share, and they must be dealt to the windows — a buffer
  read through several windows is split among them by shares. How that is done is the hypothesis `hsplit`. The
  kernel keeps nothing between grid points but what its staging buffers hold, names no semaphore of its own and does
  not use the generator register, so the invariant between points is the core's scoped buffers that are no staging
  buffer, at some contents each. The conclusion is the library's `FramePost`: every window's array holds what the
  proof data compute (`Dat.arrAt … N`), every other unscoped buffer what it held at the region's entry.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run, the windows' arrays distinct or not: the layout facts by name (`hinj`, `hw`, `hne`, `harr`,
    `hstage`), the body obligation, @main up to the region (`hmain`) and the dealing of the arrays' buffers to the
    windows at the region's entry (`hsplit`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := .rfl) V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.LayerFrame.lean ====
/-
  The frame of the fused graph-layer kernel: run on its 16 grid points, it terminates, faults nowhere and leaves the
  four argument arrays as they were.

  The kernel is one pipelined region over seven windows. Grid point t works on the 512 nodes 512·t … 512·t + 511:
  window 0 brings their features (a 512 x 64 tile of x), windows 1 and 2 the two 256-row halves of their adjacency
  rows (blocks 2t and 2t + 1 of the adjacency matrix), windows 3, 4, 5 all of x, all of W and the bias as one row,
  and window 6 takes back the 512 x 64 tile of the result. Two arrays are therefore read through two windows each —
  x through windows 0 and 3, the adjacency matrix through windows 1 and 2 — and each of them is held half by one
  window and half by the other while the region runs. The body loads its six input blocks, computes the two 256-row
  halves of the output tile and stores them; the two stores tile the output block. Nothing is kept between points but
  what the staging buffers hold. Before the region @main reshapes the bias from [64] to [1, 64], which writes none of
  the argument arrays.
-/
import proofs.«108698_g32341103738940_cont_8to1_b_156_5_alg».proof.Proof.Gen.KernelIdeal.Launch
import proofs.«108698_g32341103738940_cont_8to1_b_156_5_alg».proof.Proof.Gen.KernelIdeal.Skeleton
import proofs.«108698_g32341103738940_cont_8to1_b_156_5_alg».proof.Proof.Gen.KernelIdeal.Points
import proofs.«108698_g32341103738940_cont_8to1_b_156_5_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.LayerFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the one host operation before it
    (the bias reshaped from [64] to [1, 64]). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the reshaped bias: the four argument arrays reach the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- All of x; the two halves of W's columns; the bias row; a whole adjacency block; the two halves of a 512-row tile. -/
abbrev rX : Rect S8192x64 := Rect.unit (s := S8192x64) ![0, 0] S8192x64.size inb_S8192x64_S8192x64_0_0
abbrev rWl : Rect S64x128 := Rect.unit (s := S64x128) ![0, 0] S64x64.size inb_S64x128_S64x64_0_0
abbrev rWr : Rect S64x128 := Rect.unit (s := S64x128) ![0, 64] S64x64.size inb_S64x128_S64x64_0_64
abbrev rB : Rect S1x64 := Rect.unit (s := S1x64) ![0, 0] S1x64.size inb_S1x64_S1x64_0_0
abbrev rA : Rect S256x8192 := Rect.unit (s := S256x8192) ![0, 0] S256x8192.size inb_S256x8192_S256x8192_0_0
abbrev rTop : Rect S512x64 := Rect.unit (s := S512x64) ![0, 0] S256x64.size inb_S512x64_S256x64_0_0
abbrev rBot : Rect S512x64 := Rect.unit (s := S512x64) ![256, 0] S256x64.size inb_S512x64_S256x64_256_0

/-! ## What the body leaves in the output tile -/

/-- The output tile after the body, from the six input blocks: rows 0–255 from the first adjacency block and the
    top half of the node tile, rows 256–511 from the second adjacency block and the bottom half (the later store
    first). -/
def outTile (x0 : Vec F S512x64 .f32) (x1 x2 : Vec F S256x8192 .f32) (x3 : Vec F S8192x64 .f32) (x4 : Vec F S64x128 .f32) (x5 : Vec F S1x64 .f32) :
    Vec F S512x64 .f32 :=
  View.canon [⟨rBot, k0_pay4 (View.ld x3 rX) (View.ld x4 rWl) (View.ld x4 rWr) (View.ld x5 rB) (View.ld x2 rA) (View.ld x0 rBot)⟩,
    ⟨rTop, k0_pay3 (View.ld x3 rX) (View.ld x4 rWl) (View.ld x4 rWr) (View.ld x5 rB) (View.ld x1 rA) (View.ld x0 rTop)⟩]

/-- The two stores tile the 512 rows, so they cover the tile. -/
theorem cover_outTile (p0 p1 : Vec F S256x64 .f32) (y : S512x64.Idx) :
    ∃ pc ∈ ([⟨rBot, p0⟩, ⟨rTop, p1⟩] : List (View.Piece (Elt F) S512x64 .f32)), y ∈ pc.1.set :=
  View.cover_of_tiled [⟨rBot, p0⟩, ⟨rTop, p1⟩] S256x64.size (by rfl) y

/-! ## The body's triple -/

set_option maxHeartbeats 1000000 in
/-- The kernel body on whole staging memrefs — the six inputs' at read contents x0 … x5, the output's at anything —
    runs to the continuation holding the inputs' as they were and the output's at `outTile` of them. -/
theorem sound_kernel (c : Dev nD) (E : Set ℕ) (i : grid0.Coords)
    (arg1 : Memref sig .tc .vmem S512x64 .f32) (harg1 : arg1.IsWhole) (arg2 : Memref sig .tc .vmem S256x8192 .f32) (harg2 : arg2.IsWhole)
    (arg3 : Memref sig .tc .vmem S256x8192 .f32) (harg3 : arg3.IsWhole) (arg4 : Memref sig .tc .vmem S8192x64 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S512x64 .f32) (harg7 : arg7.IsWhole)
    (x0 : Vec F S512x64 .f32) (x1 x2 : Vec F S256x8192 .f32) (x3 : Vec F S8192x64 .f32) (x4 : Vec F S64x128 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outTile x0 x1 x2 x3 x4 x5)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_outTile _ _)

/-! ## What the body finds in each input window's buffer -/

/-- Each input window's current staging buffer holds the window's block at every point, fetched there or not: the
    body leaves the block in place, and where the pipeline does not fetch, the block index has not moved. -/
theorem before_w0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_w4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_w5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body at point `t` each input's
    buffer at its block and the output's at `outTile` of the six input blocks; between points nothing but the core's
    scoped buffers that are no staging buffer; nothing owed. The node features x are read through windows 0 and 3 and
    the adjacency matrix through windows 1 and 2: each of those two arrays is held half by one window and half by the
    other; W and the reshaped bias are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) :
    (dats m 0 c).after 6 t = outTile (iblk m c 0 t) (iblk m c 1 t) (iblk m c 2 t) (iblk m c 3 t) (iblk m c 4 t) (iblk m c 5 t) := by
  dsimp only [dats]

theorem before_w0 (c : Dev nD) (t : Fin cfg0.N) (d) : (dats m 0 c).before 0 t d = iblk m c 0 t :=
  before_w0_of m (dats m 0 c) (A_eq m c 0) (after_w0 m c) t d
theorem before_w1 (c : Dev nD) (t : Fin cfg0.N) (d) : (dats m 0 c).before 1 t d = iblk m c 1 t :=
  before_w1_of m (dats m 0 c) (A_eq m c 1) (after_w1 m c) t d
theorem before_w2 (c : Dev nD) (t : Fin cfg0.N) (d) : (dats m 0 c).before 2 t d = iblk m c 2 t :=
  before_w2_of m (dats m 0 c) (A_eq m c 2) (after_w2 m c) t d
theorem before_w3 (c : Dev nD) (t : Fin cfg0.N) (d) : (dats m 0 c).before 3 t d = iblk m c 3 t :=
  before_w3_of m (dats m 0 c) (A_eq m c 3) (after_w3 m c) t d
theorem before_w4 (c : Dev nD) (t : Fin cfg0.N) (d) : (dats m 0 c).before 4 t d = iblk m c 4 t :=
  before_w4_of m (dats m 0 c) (A_eq m c 4) (after_w4 m c) t d
theorem before_w5 (c : Dev nD) (t : Fin cfg0.N) (d) : (dats m 0 c).before 5 t d = iblk m c 5 t :=
  before_w5_of m (dats m 0 c) (A_eq m c 5) (after_w5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' buffers dealt to the windows -/

/-- The seven windows stand on five buffers: x (windows 0 and 3), the adjacency matrix (windows 1 and 2), W, the
    reshaped bias and the result. -/
theorem arrRefs_eq : Finset.univ.image (Pipeline.arrRef spec0) = [main_arg0, main_arg1, main_arg2, main_call0_v0, main_v0].toFinset := by decide

/-- The five buffers one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_call0_v0) ↦{fullShare} W main_call0_v0)
          ∗ (((c : Thread nD τ).loc main_v0) ↦{fullShare} W main_v0)) := by
  unfold Pipeline.arrBufs
  exact bigSep_eq_bigSepL_of_eq [main_arg0, main_arg1, main_arg2, main_call0_v0, main_v0] arrRefs_eq (by decide) _

/-- At the region's entry the five buffers, each whole at the full share, are the seven windows' arrays at their
    shares: x and the adjacency matrix are each split in two halves, one for each window reading them. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole]
  iintro ⟨H0, H1, H2, H3, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H1l]; · iexact H1l
  isplitl [H1r]; · iexact H1r
  isplitl [H0r]; · iexact H0r
  isplitl [H2]; · iexact H2
  isplitl [H3]; · iexact H3
  iexact H4

/-! ## The run -/

set_option backward.isDefEq.respectTransparency.types false in
/-- From any memory with zero counters every weakly fair execution of @main terminates, and in every final state each
    window's array holds what the proof data compute and every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- info: 'Cert.KernelIdeal.LayerFrame.run_main' depends on axioms: [propext, Classical.choice, Quot.sound] -/
#guard_msgs in #print axioms run_main

/-- The four argument arrays end as launched: x, the adjacency matrix and W are input windows' arrays, which the
    pipeline never writes; the bias is read by the host reshape only and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 rfl (by decide))).trans (V_main_arg3 m c)⟩) (run_main m ρ)

end Cert.KernelIdeal.LayerFrame

end
-- ==== Proof.LayerFrameBits.lean ====
/-
  The frame of the fused graph-layer kernel: run on its 16 grid points, it terminates, faults nowhere and leaves the
  four argument arrays as they were.

  The kernel is one pipelined region over seven windows. Grid point t works on the 512 nodes 512·t … 512·t + 511:
  window 0 brings their features (a 512 x 64 tile of x), windows 1 and 2 the two 256-row halves of their adjacency
  rows (blocks 2t and 2t + 1 of the adjacency matrix), windows 3, 4, 5 all of x, all of W and the bias as one row,
  and window 6 takes back the 512 x 64 tile of the result. Two arrays are therefore read through two windows each —
  x through windows 0 and 3, the adjacency matrix through windows 1 and 2 — and each of them is held half by one
  window and half by the other while the region runs. The body loads its six input blocks, computes the two 256-row
  halves of the output tile and stores them; the two stores tile the output block. Nothing is kept between points but
  what the staging buffers hold. Before the region @main reshapes the bias from [64] to [1, 64], which writes none of
  the argument arrays.
-/
import proofs.«108698_g32341103738940_cont_8to1_b_156_5_alg».proof.Proof.Gen.Kernel.Launch
import proofs.«108698_g32341103738940_cont_8to1_b_156_5_alg».proof.Proof.Gen.Kernel.Skeleton
import proofs.«108698_g32341103738940_cont_8to1_b_156_5_alg».proof.Proof.Gen.Kernel.Points
import proofs.«108698_g32341103738940_cont_8to1_b_156_5_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.LayerFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the one host operation before it
    (the bias reshaped from [64] to [1, 64]). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the reshaped bias: the four argument arrays reach the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- All of x; the two halves of W's columns; the bias row; a whole adjacency block; the two halves of a 512-row tile. -/
abbrev rX : Rect S8192x64 := Rect.unit (s := S8192x64) ![0, 0] S8192x64.size inb_S8192x64_S8192x64_0_0
abbrev rWl : Rect S64x128 := Rect.unit (s := S64x128) ![0, 0] S64x64.size inb_S64x128_S64x64_0_0
abbrev rWr : Rect S64x128 := Rect.unit (s := S64x128) ![0, 64] S64x64.size inb_S64x128_S64x64_0_64
abbrev rB : Rect S1x64 := Rect.unit (s := S1x64) ![0, 0] S1x64.size inb_S1x64_S1x64_0_0
abbrev rA : Rect S256x8192 := Rect.unit (s := S256x8192) ![0, 0] S256x8192.size inb_S256x8192_S256x8192_0_0
abbrev rTop : Rect S512x64 := Rect.unit (s := S512x64) ![0, 0] S256x64.size inb_S512x64_S256x64_0_0
abbrev rBot : Rect S512x64 := Rect.unit (s := S512x64) ![256, 0] S256x64.size inb_S512x64_S256x64_256_0

/-! ## What the body leaves in the output tile -/

/-- The output tile after the body, from the six input blocks: rows 0–255 from the first adjacency block and the
    top half of the node tile, rows 256–511 from the second adjacency block and the bottom half (the later store
    first). -/
def outTile (x0 : Vec F S512x64 .f32) (x1 x2 : Vec F S256x8192 .f32) (x3 : Vec F S8192x64 .f32) (x4 : Vec F S64x128 .f32) (x5 : Vec F S1x64 .f32) :
    Vec F S512x64 .f32 :=
  View.canon [⟨rBot, k0_pay4 (View.ld x3 rX) (View.ld x4 rWl) (View.ld x4 rWr) (View.ld x5 rB) (View.ld x2 rA) (View.ld x0 rBot)⟩,
    ⟨rTop, k0_pay3 (View.ld x3 rX) (View.ld x4 rWl) (View.ld x4 rWr) (View.ld x5 rB) (View.ld x1 rA) (View.ld x0 rTop)⟩]

/-- The two stores tile the 512 rows, so they cover the tile. -/
theorem cover_outTile (p0 p1 : Vec F S256x64 .f32) (y : S512x64.Idx) :
    ∃ pc ∈ ([⟨rBot, p0⟩, ⟨rTop, p1⟩] : List (View.Piece (Elt F) S512x64 .f32)), y ∈ pc.1.set :=
  View.cover_of_tiled [⟨rBot, p0⟩, ⟨rTop, p1⟩] S256x64.size (by rfl) y

/-! ## The body's triple -/

set_option maxHeartbeats 1000000 in
/-- The kernel body on whole staging memrefs — the six inputs' at read contents x0 … x5, the output's at anything —
    runs to the continuation holding the inputs' as they were and the output's at `outTile` of them. -/
theorem sound_kernel (c : Dev nD) (E : Set ℕ) (i : grid0.Coords)
    (arg1 : Memref sig .tc .vmem S512x64 .f32) (harg1 : arg1.IsWhole) (arg2 : Memref sig .tc .vmem S256x8192 .f32) (harg2 : arg2.IsWhole)
    (arg3 : Memref sig .tc .vmem S256x8192 .f32) (harg3 : arg3.IsWhole) (arg4 : Memref sig .tc .vmem S8192x64 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S512x64 .f32) (harg7 : arg7.IsWhole)
    (x0 : Vec F S512x64 .f32) (x1 x2 : Vec F S256x8192 .f32) (x3 : Vec F S8192x64 .f32) (x4 : Vec F S64x128 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outTile x0 x1 x2 x3 x4 x5)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_outTile _ _)

/-! ## What the body finds in each input window's buffer -/

/-- Each input window's current staging buffer holds the window's block at every point, fetched there or not: the
    body leaves the block in place, and where the pipeline does not fetch, the block index has not moved. -/
theorem before_w0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_w4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_w5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body at point `t` each input's
    buffer at its block and the output's at `outTile` of the six input blocks; between points nothing but the core's
    scoped buffers that are no staging buffer; nothing owed. The node features x are read through windows 0 and 3 and
    the adjacency matrix through windows 1 and 2: each of those two arrays is held half by one window and half by the
    other; W and the reshaped bias are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) :
    (dats m 0 c).after 6 t = outTile (iblk m c 0 t) (iblk m c 1 t) (iblk m c 2 t) (iblk m c 3 t) (iblk m c 4 t) (iblk m c 5 t) := by
  dsimp only [dats]

theorem before_w0 (c : Dev nD) (t : Fin cfg0.N) (d) : (dats m 0 c).before 0 t d = iblk m c 0 t :=
  before_w0_of m (dats m 0 c) (A_eq m c 0) (after_w0 m c) t d
theorem before_w1 (c : Dev nD) (t : Fin cfg0.N) (d) : (dats m 0 c).before 1 t d = iblk m c 1 t :=
  before_w1_of m (dats m 0 c) (A_eq m c 1) (after_w1 m c) t d
theorem before_w2 (c : Dev nD) (t : Fin cfg0.N) (d) : (dats m 0 c).before 2 t d = iblk m c 2 t :=
  before_w2_of m (dats m 0 c) (A_eq m c 2) (after_w2 m c) t d
theorem before_w3 (c : Dev nD) (t : Fin cfg0.N) (d) : (dats m 0 c).before 3 t d = iblk m c 3 t :=
  before_w3_of m (dats m 0 c) (A_eq m c 3) (after_w3 m c) t d
theorem before_w4 (c : Dev nD) (t : Fin cfg0.N) (d) : (dats m 0 c).before 4 t d = iblk m c 4 t :=
  before_w4_of m (dats m 0 c) (A_eq m c 4) (after_w4 m c) t d
theorem before_w5 (c : Dev nD) (t : Fin cfg0.N) (d) : (dats m 0 c).before 5 t d = iblk m c 5 t :=
  before_w5_of m (dats m 0 c) (A_eq m c 5) (after_w5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' buffers dealt to the windows -/

/-- The seven windows stand on five buffers: x (windows 0 and 3), the adjacency matrix (windows 1 and 2), W, the
    reshaped bias and the result. -/
theorem arrRefs_eq : Finset.univ.image (Pipeline.arrRef spec0) = [main_arg0, main_arg1, main_arg2, main_call0_v0, main_v0].toFinset := by decide

/-- The five buffers one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_call0_v0) ↦{fullShare} W main_call0_v0)
          ∗ (((c : Thread nD τ).loc main_v0) ↦{fullShare} W main_v0)) := by
  unfold Pipeline.arrBufs
  exact bigSep_eq_bigSepL_of_eq [main_arg0, main_arg1, main_arg2, main_call0_v0, main_v0] arrRefs_eq (by decide) _

/-- At the region's entry the five buffers, each whole at the full share, are the seven windows' arrays at their
    shares: x and the adjacency matrix are each split in two halves, one for each window reading them. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole]
  iintro ⟨H0, H1, H2, H3, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H1l]; · iexact H1l
  isplitl [H1r]; · iexact H1r
  isplitl [H0r]; · iexact H0r
  isplitl [H2]; · iexact H2
  isplitl [H3]; · iexact H3
  iexact H4

/-! ## The run -/

set_option backward.isDefEq.respectTransparency.types false in
/-- From any memory with zero counters every weakly fair execution of @main terminates, and in every final state each
    window's array holds what the proof data compute and every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- info: 'Cert.Kernel.LayerFrame.run_main' depends on axioms: [propext, Classical.choice, Quot.sound] -/
#guard_msgs in #print axioms run_main

/-- The four argument arrays end as launched: x, the adjacency matrix and W are input windows' arrays, which the
    pipeline never writes; the bias is read by the host reshape only and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 rfl (by decide))).trans (V_main_arg3 m c)⟩) (run_main m ρ)

end Cert.Kernel.LayerFrame

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibRowRowDot.lean ====
/-
  A matrix product of an [R, K] operand by a [C, K] operand in which BOTH operands are contracted over their
  second axis (the dimension numbers lhs_contracting = [1], rhs_contracting = [1], no batch axes): the right operand
  enters transposed. Read at an entry (p, q) on the extended reals it is the sum over k of l(p, k) · r(q, k), the
  inner product of row p of the left operand with row q of the right one. Stated for ANY dimension-number record of
  that form, so that it serves every such product whatever the record's name and whatever R, K, C are.
-/
import Idealize.ShloMosaic.PureOps.Ideal.Laws
import Idealize.ShloMosaic.Lib.ValueIdx

noncomputable section

namespace Idealize.ShloMosaic.RowRowDot

open Idealize.ShloMosaic Idealize.ShloMosaic.ValueIdx

variable {R K C : ℕ}

/-- The dimension numbers of a row-by-row product: each operand's axis 1 is contracted with the other's; the left
    operand's axis 0 and then the right operand's axis 0 survive, in that order; no batch axes. -/
structure IsRowRow (d : DotDims ⟨2, ![R, K]⟩ ⟨2, ![C, K]⟩ ⟨2, ![R, C]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![R, K]⟩ ⟨2, ![C, K]⟩ ⟨2, ![R, C]⟩}

/-- Two readings of one index at the same axis position agree. -/
private theorem val_at {s : Shape} (j : s.Idx) {a b : Nat} (ha : a < s.rank) (hb : b < s.rank) (e : a = b) :
    (j ⟨a, ha⟩).val = (j ⟨b, hb⟩).val := by subst e; rfl

/-- The left operand is read in the result's row: its axis 0 carries the result's coordinate 0. -/
theorem lhs_axis0 (h : IsRowRow d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_at j _ _ (by simp [h.lb, h.ln])

/-- The right operand is read in the row named by the result's column: its axis 0 carries the result's coordinate 1. -/
theorem rhs_axis0 (h : IsRowRow d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_at j _ _ (by simp [h.lb, h.ln, h.rn])

/-- One axis is contracted … -/
theorem contr_rank (h : IsRowRow d) : d.contr.rank = 1 := by
  rw [d.rank_contr, h.lc]; rfl

/-- … and its extent is K. -/
theorem contr_size (h : IsRowRow d) : d.contr.size ⟨0, by rw [contr_rank h]; exact Nat.one_pos⟩ = K := by
  rw [d.size_contr 0 (by rw [h.lc]; exact Nat.one_pos)]
  simp [h.lc]

/-- The contraction's sum at (p, q), re-indexed by the contracted coordinate: row p against row q. -/
theorem sum_apply (h : IsRowRow d) {φ₁ φ₂ : FTy} (l : FVec Ideal ⟨2, ![R, K]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 p k) * r (ix2 q k) := by
  let e := contrEquiv1 d K (contr_rank h) (contr_size h)
  rw [← Equiv.sum_comp e.symm]
  refine Finset.sum_congr rfl fun k _ => ?_
  have hk : ((e.symm k) ⟨0, _⟩ : ℕ) = k.val := contrEquiv1_symm_val d K (contr_rank h) (contr_size h) k
  have el : d.lhsIdx (ix2 p q) (e.symm k) = ix2 p k := by
    funext a
    refine Fin.ext ?_
    match a with
    | ⟨0, _⟩ => exact lhs_axis0 h _ _
    | ⟨1, _⟩ => exact (d.lhsIdx_val_of_single h.lc _ _).trans hk
  have er : d.rhsIdx (ix2 p q) (e.symm k) = ix2 q k := by
    funext a
    refine Fin.ext ?_
    match a with
    | ⟨0, _⟩ => exact rhs_axis0 h _ _
    | ⟨1, _⟩ => exact (d.rhsIdx_val_of_single h.rc _ _).trans hk
  rw [el, er]

/-- A kernel's matrix product into a zero accumulator, read at (p, q). -/
theorem matmul_zero_apply (h : IsRowRow d) {φ₁ φ₂ : FTy} (prec : Option ContractPrecision)
    (l : FVec Ideal ⟨2, ![R, K]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 p k) * r (ix2 q k) := by
  rw [Ideal.matmul_constant_zero_apply]
  exact sum_apply h l r p q

/-- The host's matrix product read at (p, q). -/
theorem dotGeneral_apply (h : IsRowRow d) {φ₁ φ₂ : FTy} (prec : Option ContractPrecision) (sched : HostSchedule)
    (l : FVec Ideal ⟨2, ![R, K]⟩ φ₁) (r : FVec Ideal ⟨2, ![C, K]⟩ φ₂) (p : Fin R) (q : Fin C) :
    FloatOps.dotGeneral d prec sched l r (ix2 p q) = ∑ k : Fin K, l (ix2 p k) * r (ix2 q k) := by
  rw [Ideal.dotGeneral_apply]
  exact sum_apply h l r p q

end Idealize.ShloMosaic.RowRowDot

end
-- ==== Proof.PayloadAt.lean ====
/-
  What the kernel body stores, entry by entry. Each of the two 256 x 64 tiles it writes is, at an entry (p, q),
      max( Σ_k x(p, k) · w₁(q, k)  +  Σ_k ( Σ_j a(p, j) · h(j, k) ) · w₂(q, k)  +  b(0, q),  0 )
  with x the 256 x 64 block of the first operand, a the 256 x 8192 block of the second, h the 8192 x 64 operand, w₁ and
  w₂ the two 64 x 64 halves of the weight (each used transposed: contracted over its second axis) and b the 1 x 64
  row added to every row. On the extended reals the narrowing format change before the first product is the identity,
  the shape cast to the same shape is the identity, and the broadcast row reads row 0.
-/
import proofs.«108698_g32341103738940_cont_8to1_b_156_5_alg».proof.Proof.Gen.KernelIdeal.Skeleton
import proofs.«108698_g32341103738940_cont_8to1_b_156_5_alg».proof.Proof.LibPlainDot
import proofs.«108698_g32341103738940_cont_8to1_b_156_5_alg».proof.Proof.LibRowRowDot
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-- The first product's dimension numbers are those of a plain row-by-column product. -/
theorem plain_D1 : PlainDot.IsPlain dot_S256x8192_S8192x64_S256x64_1_0_0_1_n_n := ⟨rfl, rfl, rfl, rfl, rfl, rfl⟩

/-- The other two products' dimension numbers are those of a row-by-row product. -/
theorem rowRow_D2 : RowRowDot.IsRowRow dot_S256x64_S64x64_S256x64_1_1_0_0_n_n := ⟨rfl, rfl, rfl, rfl, rfl, rfl⟩

/-- The common form of the two tiles: from a 256 x 8192 block a and a 256 x 64 block x. -/
theorem tile_at (v0 : FVec Ideal S8192x64 .f32) (v2 v3 : FVec Ideal S64x64 .f32) (v4 : FVec Ideal S1x64 .f32) (a : FVec Ideal S256x8192 .f32) (x : FVec Ideal S256x64 .f32) (p : Fin 256) (q : Fin 64) :
    max ((FloatOps.matmul (φ₁ := .f32) (φ₂ := .f32) dot_S256x64_S64x64_S256x64_1_1_0_0_n_n none x v2 (constant S256x64 .f32 0x00000000#32) (ix2 p q)
        + FloatOps.matmul (φ₁ := .f32) (φ₂ := .f32) dot_S256x64_S64x64_S256x64_1_1_0_0_n_n none
            (FloatOps.matmul (φ₁ := .bf16) (φ₂ := .bf16) dot_S256x8192_S8192x64_S256x64_1_0_0_1_n_n none (truncf (F := Ideal) .bf16 a bitsLt_bf16_f32) (truncf (F := Ideal) .bf16 v0 bitsLt_bf16_f32) (constant S256x64 .f32 0x00000000#32))
            v3 (constant S256x64 .f32 0x00000000#32) (ix2 p q))
        + broadcastTo S256x64 (shapeCast S1x64 v4 shapeCasts_S1x64_S1x64) broadcasts_S1x64_S256x64 (ix2 p q)) (Ideal.ofBits .f32 0x00000000#32)
      = max ((∑ k : Fin 64, x (ix2 p k) * v2 (ix2 q k) + ∑ k : Fin 64, (∑ j : Fin 8192, a (ix2 p j) * v0 (ix2 j k)) * v3 (ix2 q k)) + v4 (ix2 (0 : Fin 1) q)) (Ideal.ofBits .f32 0x00000000#32) := by
  refine congrArg (max · (Ideal.ofBits .f32 0x00000000#32)) ?_
  refine congrArg₂ (· + ·) (congrArg₂ (· + ·) ?_ ?_) ?_
  · exact RowRowDot.matmul_zero_apply rowRow_D2 none x v2 p q
  · refine (RowRowDot.matmul_zero_apply rowRow_D2 none _ v3 p q).trans ?_
    refine Finset.sum_congr rfl fun k _ => ?_
    refine congrArg (· * v3 (ix2 q k)) ?_
    exact PlainDot.matmul_zero_apply plain_D1 none _ _ p k
  · refine (broadcastTo_1b_ab_apply _ broadcasts_S1x64_S256x64 p q).trans ?_
    rw [shapeCast_self]

/-- The first tile's stored value at (p, q). -/
theorem pay3_at (v0 : Vec Ideal S8192x64 .f32) (v2 v3 : Vec Ideal S64x64 .f32) (v4 : Vec Ideal S1x64 .f32) (v6 : Vec Ideal S256x8192 .f32) (v9 : Vec Ideal S256x64 .f32) (p : Fin 256) (q : Fin 64) :
    k0_pay3 (F := Ideal) v0 v2 v3 v4 v6 v9 (ix2 p q)
      = max ((∑ k : Fin 64, v9 (ix2 p k) * v2 (ix2 q k) + ∑ k : Fin 64, (∑ j : Fin 8192, v6 (ix2 p j) * v0 (ix2 j k)) * v3 (ix2 q k)) + v4 (ix2 (0 : Fin 1) q)) (Ideal.ofBits .f32 0x00000000#32) :=
  tile_at v0 v2 v3 v4 v6 v9 p q

/-- The second tile's stored value at (p, q). -/
theorem pay4_at (v0 : Vec Ideal S8192x64 .f32) (v2 v3 : Vec Ideal S64x64 .f32) (v4 : Vec Ideal S1x64 .f32) (v18 : Vec Ideal S256x8192 .f32) (v21 : Vec Ideal S256x64 .f32) (p : Fin 256) (q : Fin 64) :
    k0_pay4 (F := Ideal) v0 v2 v3 v4 v18 v21 (ix2 p q)
      = max ((∑ k : Fin 64, v21 (ix2 p k) * v2 (ix2 q k) + ∑ k : Fin 64, (∑ j : Fin 8192, v18 (ix2 p j) * v0 (ix2 j k)) * v3 (ix2 q k)) + v4 (ix2 (0 : Fin 1) q)) (Ideal.ofBits .f32 0x00000000#32) :=
  tile_at v0 v2 v3 v4 v18 v21 p q

end Cert.KernelIdeal.Payload

end
-- ==== Proof.LayerSpec.lean ====
/-
  The graph layer as one function of its four argument arrays, entry by entry, on the extended reals.

  For a node r and an output feature o,

      layer r o = max ( Σ_{k<64} x[r,k]·W[o,k]  +  Σ_{k<64} (Σ_{j<8192} adj[r,j]·x[j,k])·W[o,64+k]  +  b[o] ,  0 ):

  the node's own features meet the first 64 columns of W, the sum of its neighbours' features (weighted by the
  adjacency row) meets the last 64 columns, the bias is added and the result is clamped at zero.
-/
import Idealize.ShloMosaic.PureOps.Ideal
import Idealize.ShloMosaic.Lib.ValueIdx

noncomputable section

namespace GraphLayer

open Idealize.ShloMosaic Idealize.ShloMosaic.ValueIdx

/-- Column k of the left half of the 128 weight columns. -/
def lo (k : Fin 64) : Fin 128 := ⟨k.val, by omega⟩
/-- Column 64 + k: column k of the right half. -/
def hi (k : Fin 64) : Fin 128 := ⟨64 + k.val, by omega⟩

/-- The neighbours' aggregate: row r of adj · x, at feature k. -/
def neigh (x : FVec Ideal ⟨2, ![8192, 64]⟩ .f32) (adj : FVec Ideal ⟨2, ![8192, 8192]⟩ .f32) (r : Fin 8192) (k : Fin 64) : Ideal .f32 :=
  ∑ j : Fin 8192, adj (ix2 r j) * x (ix2 j k)

/-- The affine part, before the clamp. -/
def affine (x : FVec Ideal ⟨2, ![8192, 64]⟩ .f32) (adj : FVec Ideal ⟨2, ![8192, 8192]⟩ .f32) (w : FVec Ideal ⟨2, ![64, 128]⟩ .f32)
    (b : FVec Ideal ⟨1, ![64]⟩ .f32) (r : Fin 8192) (o : Fin 64) : Ideal .f32 :=
  (∑ k : Fin 64, x (ix2 r k) * w (ix2 o (lo k)) + ∑ k : Fin 64, neigh x adj r k * w (ix2 o (hi k))) + b (ix1 o)

/-- The layer at node r, output feature o. -/
def layerAt (x : FVec Ideal ⟨2, ![8192, 64]⟩ .f32) (adj : FVec Ideal ⟨2, ![8192, 8192]⟩ .f32) (w : FVec Ideal ⟨2, ![64, 128]⟩ .f32)
    (b : FVec Ideal ⟨1, ![64]⟩ .f32) (r : Fin 8192) (o : Fin 64) : Ideal .f32 :=
  max (affine x adj w b r o) (Ideal.ofBits .f32 0x00000000#32)

/-- The layer as a whole array. -/
def layer (x : FVec Ideal ⟨2, ![8192, 64]⟩ .f32) (adj : FVec Ideal ⟨2, ![8192, 8192]⟩ .f32) (w : FVec Ideal ⟨2, ![64, 128]⟩ .f32)
    (b : FVec Ideal ⟨1, ![64]⟩ .f32) : FVec Ideal ⟨2, ![8192, 64]⟩ .f32 :=
  fun i => layerAt x adj w b (i 0) (i 1)

theorem layer_ix2 (x : FVec Ideal ⟨2, ![8192, 64]⟩ .f32) (adj : FVec Ideal ⟨2, ![8192, 8192]⟩ .f32) (w : FVec Ideal ⟨2, ![64, 128]⟩ .f32)
    (b : FVec Ideal ⟨1, ![64]⟩ .f32) (r : Fin 8192) (o : Fin 64) : layer x adj w b (ix2 r o) = layerAt x adj w b r o := rfl

/-- A sum over the 128 weight columns is the sum over the left half plus the sum over the right half. -/
theorem sum_halves (f : Fin 128 → Ideal .f32) : ∑ c : Fin 128, f c = ∑ k : Fin 64, f (lo k) + ∑ k : Fin 64, f (hi k) := by
  have h := Fin.sum_univ_add (M := EReal) (a := 64) (b := 64) f
  refine h.trans ?_
  congr 1 <;> exact Finset.sum_congr rfl fun k _ => congrArg f (Fin.ext (by simp [lo, hi]))

end GraphLayer

end
-- ==== Proof.LayerValue.lean ====
/-
  What the fused graph-layer kernel leaves in its result array: the layer of its four argument arrays.

  Grid point t writes back a 512 x 64 tile, the rows 512·t … 512·t + 511 of the result. Its top half (rows 0–255 of
  the tile) is computed from block 2t of the adjacency matrix and the top half of the node tile, its bottom half from
  block 2t + 1 and the bottom half; in both, entry (h, q) is

      max ( Σ_k x[512t+h, k]·W[q, k] + Σ_k (Σ_j adj[512t+h, j]·x[j, k])·W[q, 64+k] + b[q], 0 ),

  the layer at node 512·t + h and feature q: every block the body loads is the argument array read at the block's
  offset (the whole-array windows at offset zero, the reshaped bias at row 0). The sixteen tiles cover the 8192 rows,
  so the array ends holding the layer everywhere.
-/
import proofs.«108698_g32341103738940_cont_8to1_b_156_5_alg».proof.Proof.LayerFrame
import proofs.«108698_g32341103738940_cont_8to1_b_156_5_alg».proof.Proof.PayloadAt
import proofs.«108698_g32341103738940_cont_8to1_b_156_5_alg».proof.Proof.LayerSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.LayerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.LayerFrame GraphLayer

variable (m : (ℓ : Loc nD τ sig) → Buf (Elt Ideal) ℓ) (ρ : Dev nD → PrngReg)

theorem t_lt (t : Fin cfg0.N) : t.val < 16 := by
  have h : cfg0.N = 16 := N_0
  have := t.isLt; omega

/-- Row h of grid point t's 512-row tile is row 512·t + h of the array. -/
def row (t : Fin cfg0.N) (h : Fin 512) : Fin 8192 := ⟨512 * t.val + h.val, by have := t_lt t; have := h.isLt; omega⟩
/-- Row p of the top half of a tile, and of the bottom half. -/
def top (p : Fin 256) : Fin 512 := ⟨p.val, by omega⟩
def bot (p : Fin 256) : Fin 512 := ⟨256 + p.val, by omega⟩

theorem idx_facts : ∀ t : Fin cfg0.N, win0_0.index t (0 : Fin 2) = t.val ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem blk0_read (c : Dev nD) (t : Fin cfg0.N) (h : Fin 512) (k : Fin 64) :
    iblk m c 0 t (ix2 h k) = m ((c : Thread nD τ).loc main_arg0) (ix2 (row t h) k) := by
  show V m c main_arg0 (((cfg0.win 0).blk t).view.emb (ix2 h k)) = _
  rw [V_main_arg0]
  refine congrArg _ ?_
  funext a; apply Fin.ext
  obtain ⟨e00, e01, -⟩ := idx_facts t
  match a with
  | ⟨0, _⟩ => show win0_0.index t (0 : Fin 2) * 512 + 1 * h.val = 512 * t.val + h.val; omega
  | ⟨1, _⟩ => show win0_0.index t (1 : Fin 2) * 64 + 1 * k.val = k.val; omega

/-- The bias as the region finds it: the launch bias recast from [64] to [1, 64]. -/
theorem V_bias (c : Dev nD) : (V m c main_call0_v0 : S1x64.Idx → Ideal .f32)
    = shapeCast S1x64 (m ((c : Thread nD τ).loc main_arg3) : S64.Idx → Ideal .f32) shapeCasts_S64_S1x64 := by
  dsimp only [V, hostOps0]; after_results; rfl

theorem V_bias_apply (c : Dev nD) (q : Fin 64) :
    (V m c main_call0_v0 : S1x64.Idx → Ideal .f32) (ix2 (0 : Fin 1) q) = m ((c : Thread nD τ).loc main_arg3) (ix1 q) := by
  rw [V_bias]
  exact shapeCast_a_1a_apply _ shapeCasts_S64_S1x64 (0 : Fin 1) q

theorem blk1_read (c : Dev nD) (t : Fin cfg0.N) (p : Fin 256) (j : Fin 8192) :
    iblk m c 1 t (ix2 p j) = m ((c : Thread nD τ).loc main_arg1) (ix2 (row t (top p)) j) := by
  show V m c main_arg1 (((cfg0.win 1).blk t).view.emb (ix2 p j)) = _
  rw [V_main_arg1]
  refine congrArg _ ?_
  funext a; apply Fin.ext
  obtain ⟨-, -, e10, e11, -⟩ := idx_facts t
  match a with
  | ⟨0, _⟩ => show win0_1.index t (0 : Fin 2) * 256 + 1 * p.val = 512 * t.val + p.val; omega
  | ⟨1, _⟩ => show win0_1.index t (1 : Fin 2) * 8192 + 1 * j.val = j.val; omega

theorem blk2_read (c : Dev nD) (t : Fin cfg0.N) (p : Fin 256) (j : Fin 8192) :
    iblk m c 2 t (ix2 p j) = m ((c : Thread nD τ).loc main_arg1) (ix2 (row t (bot p)) j) := by
  show V m c main_arg1 (((cfg0.win 2).blk t).view.emb (ix2 p j)) = _
  rw [V_main_arg1]
  refine congrArg _ ?_
  funext a; apply Fin.ext
  obtain ⟨-, -, -, -, e20, e21, -⟩ := idx_facts t
  match a with
  | ⟨0, _⟩ => show win0_2.index t (0 : Fin 2) * 256 + 1 * p.val = 512 * t.val + (256 + p.val); omega
  | ⟨1, _⟩ => show win0_2.index t (1 : Fin 2) * 8192 + 1 * j.val = j.val; omega

theorem blk3_read (c : Dev nD) (t : Fin cfg0.N) (j : Fin 8192) (k : Fin 64) :
    iblk m c 3 t (ix2 j k) = m ((c : Thread nD τ).loc main_arg0) (ix2 j k) := by
  show V m c main_arg0 (((cfg0.win 3).blk t).view.emb (ix2 j k)) = _
  rw [V_main_arg0]
  refine congrArg _ ?_
  funext a; apply Fin.ext
  obtain ⟨-, -, -, -, -, -, e30, e31, -⟩ := idx_facts t
  match a with
  | ⟨0, _⟩ => show win0_3.index t (0 : Fin 2) * 8192 + 1 * j.val = j.val; omega
  | ⟨1, _⟩ => show win0_3.index t (1 : Fin 2) * 64 + 1 * k.val = k.val; omega

theorem blk4_read (c : Dev nD) (t : Fin cfg0.N) (o : Fin 64) (cc : Fin 128) :
    iblk m c 4 t (ix2 o cc) = m ((c : Thread nD τ).loc main_arg2) (ix2 o cc) := by
  show V m c main_arg2 (((cfg0.win 4).blk t).view.emb (ix2 o cc)) = _
  rw [V_main_arg2]
  refine congrArg _ ?_
  funext a; apply Fin.ext
  obtain ⟨-, -, -, -, -, -, -, -, e40, e41, -⟩ := idx_facts t
  match a with
  | ⟨0, _⟩ => show win0_4.index t (0 : Fin 2) * 64 + 1 * o.val = o.val; omega
  | ⟨1, _⟩ => show win0_4.index t (1 : Fin 2) * 128 + 1 * cc.val = cc.val; omega

theorem blk5_read (c : Dev nD) (t : Fin cfg0.N) (q : Fin 64) :
    iblk m c 5 t (ix2 (0 : Fin 1) q) = m ((c : Thread nD τ).loc main_arg3) (ix1 q) := by
  show V m c main_call0_v0 (((cfg0.win 5).blk t).view.emb (ix2 (0 : Fin 1) q)) = _
  have e : ((cfg0.win 5).blk t).view.emb (ix2 (0 : Fin 1) q) = ix2 (0 : Fin 1) q := by
    funext a; apply Fin.ext
    obtain ⟨-, -, -, -, -, -, -, -, -, -, e50, e51, -⟩ := idx_facts t
    match a with
    | ⟨0, _⟩ => show win0_5.index t (0 : Fin 2) * 1 + 1 * 0 = 0; omega
    | ⟨1, _⟩ => show win0_5.index t (1 : Fin 2) * 64 + 1 * q.val = q.val; omega
  rw [e]
  exact V_bias_apply m c q

theorem blk6_emb (t : Fin cfg0.N) (h : Fin 512) (q : Fin 64) : ((cfg0.win 6).blk t).view.emb (ix2 h q) = ix2 (row t h) q := by
  funext a; apply Fin.ext
  obtain ⟨-, -, -, -, -, -, -, -, -, -, -, -, e60, e61⟩ := idx_facts t
  match a with
  | ⟨0, _⟩ => show win0_6.index t (0 : Fin 2) * 512 + 1 * h.val = 512 * t.val + h.val; omega
  | ⟨1, _⟩ => show win0_6.index t (1 : Fin 2) * 64 + 1 * q.val = q.val; omega

/-! ## The output tile, entry by entry, over any six blocks -/

theorem hzero2 : (![0, 0] : Fin 2 → Nat) = fun _ => 0 := funext fun a => by fin_cases a <;> rfl

theorem rBot_emb (p : Fin 256) (q : Fin 64) : rBot.emb (ix2 p q) = ix2 (bot p) q := by
  funext a; apply Fin.ext
  match a with
  | ⟨0, _⟩ => show 256 + 1 * p.val = 256 + p.val; omega
  | ⟨1, _⟩ => show 0 + 1 * q.val = q.val; omega
theorem rTop_emb (p : Fin 256) (q : Fin 64) : rTop.emb (ix2 p q) = ix2 (top p) q := by
  funext a; apply Fin.ext
  match a with
  | ⟨0, _⟩ => show 0 + 1 * p.val = p.val; omega
  | ⟨1, _⟩ => show 0 + 1 * q.val = q.val; omega
theorem rWl_emb (o k : Fin 64) : rWl.emb (ix2 o k) = ix2 o (lo k) := by
  funext a; apply Fin.ext
  match a with
  | ⟨0, _⟩ => show 0 + 1 * o.val = o.val; omega
  | ⟨1, _⟩ => show 0 + 1 * k.val = k.val; omega
theorem rWr_emb (o k : Fin 64) : rWr.emb (ix2 o k) = ix2 o (hi k) := by
  funext a; apply Fin.ext
  match a with
  | ⟨0, _⟩ => show 0 + 1 * o.val = o.val; omega
  | ⟨1, _⟩ => show 64 + 1 * k.val = 64 + k.val; omega

/-- An entry in the top half is outside the later store's rows. -/
theorem top_not_mem_rBot (p : Fin 256) (q : Fin 64) : ix2 (top p) q ∉ rBot.set := by
  rw [Rect.mem_set_unit]
  intro h
  have h0 := (h 0).1
  have : (256 : Nat) ≤ p.val := h0
  omega

/-- Two stores, rows 256–511 last: the bottom half reads the later store, the top half the earlier one. -/
theorem canon_bot (w4 w3 : Vec Ideal S256x64 .f32) (p : Fin 256) (q : Fin 64) :
    View.canon ([⟨rBot, w4⟩, ⟨rTop, w3⟩] : List (View.Piece (Elt Ideal) S512x64 .f32)) (ix2 (bot p) q) = w4 (ix2 p q) := by
  rw [← rBot_emb]; exact View.canon_cons_emb rBot w4 _ (ix2 p q)
theorem canon_top (w4 w3 : Vec Ideal S256x64 .f32) (p : Fin 256) (q : Fin 64) :
    View.canon ([⟨rBot, w4⟩, ⟨rTop, w3⟩] : List (View.Piece (Elt Ideal) S512x64 .f32)) (ix2 (top p) q) = w3 (ix2 p q) := by
  refine (View.canon_cons_of_not_mem (⟨rBot, w4⟩ : View.Piece (Elt Ideal) S512x64 .f32) [⟨rTop, w3⟩] (top_not_mem_rBot p q)).trans ?_
  rw [← rTop_emb]; exact View.canon_cons_emb rTop w3 [] (ix2 p q)

/-- Rows 256–511 of the tile. -/
theorem outTile_bot (x0 : Vec Ideal S512x64 .f32) (x1 x2 : Vec Ideal S256x8192 .f32) (x3 : Vec Ideal S8192x64 .f32) (x4 : Vec Ideal S64x128 .f32) (x5 : Vec Ideal S1x64 .f32)
    (p : Fin 256) (q : Fin 64) :
    outTile x0 x1 x2 x3 x4 x5 (ix2 (bot p) q)
      = max ((∑ k : Fin 64, x0 (ix2 (bot p) k) * x4 (ix2 q (lo k)) + ∑ k : Fin 64, (∑ j : Fin 8192, x2 (ix2 p j) * x3 (ix2 j k)) * x4 (ix2 q (hi k))) + x5 (ix2 (0 : Fin 1) q))
          (Ideal.ofBits .f32 0x00000000#32) := by
  have e3 : View.ld x3 rX = x3 := View.ld_unit_zero (S := S8192x64) hzero2 _ x3
  have e2 : View.ld x2 rA = x2 := View.ld_unit_zero (S := S256x8192) hzero2 _ x2
  have e5 : View.ld x5 rB = x5 := View.ld_unit_zero (S := S1x64) hzero2 _ x5
  unfold outTile
  refine (canon_bot _ _ p q).trans ?_
  refine (Payload.pay4_at _ _ _ _ _ _ p q).trans ?_
  rw [e3, e2, e5]
  show max ((∑ k : Fin 64, x0 (rBot.emb (ix2 p k)) * x4 (rWl.emb (ix2 q k)) + ∑ k : Fin 64, (∑ j : Fin 8192, x2 (ix2 p j) * x3 (ix2 j k)) * x4 (rWr.emb (ix2 q k))) + x5 (ix2 (0 : Fin 1) q)) _ = _
  simp only [rBot_emb, rWl_emb, rWr_emb]

/-- Rows 0–255 of the tile. -/
theorem outTile_top (x0 : Vec Ideal S512x64 .f32) (x1 x2 : Vec Ideal S256x8192 .f32) (x3 : Vec Ideal S8192x64 .f32) (x4 : Vec Ideal S64x128 .f32) (x5 : Vec Ideal S1x64 .f32)
    (p : Fin 256) (q : Fin 64) :
    outTile x0 x1 x2 x3 x4 x5 (ix2 (top p) q)
      = max ((∑ k : Fin 64, x0 (ix2 (top p) k) * x4 (ix2 q (lo k)) + ∑ k : Fin 64, (∑ j : Fin 8192, x1 (ix2 p j) * x3 (ix2 j k)) * x4 (ix2 q (hi k))) + x5 (ix2 (0 : Fin 1) q))
          (Ideal.ofBits .f32 0x00000000#32) := by
  have e3 : View.ld x3 rX = x3 := View.ld_unit_zero (S := S8192x64) hzero2 _ x3
  have e1 : View.ld x1 rA = x1 := View.ld_unit_zero (S := S256x8192) hzero2 _ x1
  have e5 : View.ld x5 rB = x5 := View.ld_unit_zero (S := S1x64) hzero2 _ x5
  unfold outTile
  refine (canon_top _ _ p q).trans ?_
  refine (Payload.pay3_at _ _ _ _ _ _ p q).trans ?_
  rw [e3, e1, e5]
  show max ((∑ k : Fin 64, x0 (rTop.emb (ix2 p k)) * x4 (rWl.emb (ix2 q k)) + ∑ k : Fin 64, (∑ j : Fin 8192, x1 (ix2 p j) * x3 (ix2 j k)) * x4 (rWr.emb (ix2 q k))) + x5 (ix2 (0 : Fin 1) q)) _ = _
  simp only [rTop_emb, rWl_emb, rWr_emb]

/-! ## The result array -/

/-- The layer of the four launch arrays. -/
abbrev G (c : Dev nD) : S8192x64.Idx → Ideal .f32 :=
  GraphLayer.layer (m ((c : Thread nD τ).loc main_arg0)) (m ((c : Thread nD τ).loc main_arg1)) (m ((c : Thread nD τ).loc main_arg2))
    (m ((c : Thread nD τ).loc main_arg3))

/-- Entry (h, q) of the tile the body leaves at grid point t is the layer at node 512·t + h, feature q. -/
theorem tile_point (c : Dev nD) (t : Fin cfg0.N) (h : Fin 512) (q : Fin 64) :
    outTile (iblk m c 0 t) (iblk m c 1 t) (iblk m c 2 t) (iblk m c 3 t) (iblk m c 4 t) (iblk m c 5 t) (ix2 h q)
      = layerAt (m ((c : Thread nD τ).loc main_arg0)) (m ((c : Thread nD τ).loc main_arg1)) (m ((c : Thread nD τ).loc main_arg2))
          (m ((c : Thread nD τ).loc main_arg3)) (row t h) q := by
  unfold layerAt affine neigh
  by_cases hh : h.val < 256
  · obtain ⟨p, rfl⟩ : ∃ p : Fin 256, h = top p := ⟨⟨h.val, hh⟩, Fin.ext rfl⟩
    refine (outTile_top (iblk m c 0 t) (iblk m c 1 t) (iblk m c 2 t) (iblk m c 3 t) (iblk m c 4 t) (iblk m c 5 t) p q).trans ?_
    refine congrArg (max · (Ideal.ofBits .f32 0x00000000#32)) ?_
    refine congrArg₂ (· + ·) (congrArg₂ (· + ·) (Finset.sum_congr rfl fun k _ => ?_) (Finset.sum_congr rfl fun k _ => ?_)) ?_
    · exact congrArg₂ (· * ·) (blk0_read m c t (top p) k) (blk4_read m c t q (lo k))
    · refine congrArg₂ (· * ·) (Finset.sum_congr rfl fun j _ => ?_) (blk4_read m c t q (hi k))
      exact congrArg₂ (· * ·) (blk1_read m c t p j) (blk3_read m c t j k)
    · exact blk5_read m c t q
  · obtain ⟨p, rfl⟩ : ∃ p : Fin 256, h = bot p :=
      ⟨⟨h.val - 256, by have := h.isLt; omega⟩, Fin.ext (by show h.val = 256 + (h.val - 256); omega)⟩
    refine (outTile_bot (iblk m c 0 t) (iblk m c 1 t) (iblk m c 2 t) (iblk m c 3 t) (iblk m c 4 t) (iblk m c 5 t) p q).trans ?_
    refine congrArg (max · (Ideal.ofBits .f32 0x00000000#32)) ?_
    refine congrArg₂ (· + ·) (congrArg₂ (· + ·) (Finset.sum_congr rfl fun k _ => ?_) (Finset.sum_congr rfl fun k _ => ?_)) ?_
    · exact congrArg₂ (· * ·) (blk0_read m c t (bot p) k) (blk4_read m c t q (lo k))
    · refine congrArg₂ (· * ·) (Finset.sum_congr rfl fun j _ => ?_) (blk4_read m c t q (hi k))
      exact congrArg₂ (· * ·) (blk2_read m c t p j) (blk3_read m c t j k)
    · exact blk5_read m c t q

/-- What grid point t writes back is block t of the layer. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after_w6]
  funext j
  show outTile (iblk m c 0 t) (iblk m c 1 t) (iblk m c 2 t) (iblk m c 3 t) (iblk m c 4 t) (iblk m c 5 t) j
    = G m c (((cfg0.win 6).blk t).view.emb j)
  obtain ⟨h, q, rfl⟩ : ∃ (h : Fin 512) (q : Fin 64), j = ix2 h q := ⟨j 0, j 1, eq_ix2 j⟩
  rw [blk6_emb]
  exact tile_point m c t h q

/-- An index of the result array is in grid point t's block iff its row is among the point's 512 rows. -/
theorem mem_blk6 (t : Fin cfg0.N) (i : S8192x64.Idx) :
    i ∈ ((cfg0.win 6).blk t).view.set ↔ ∀ a : Fin 2, win0_6.index t a * S512x64.size a ≤ (i a).val ∧ (i a).val < win0_6.index t a * S512x64.size a + S512x64.size a := by
  show i ∈ ((View.whole main_v0).slice (win0_6.rect t)).set ↔ _
  rw [View.set_slice_whole, Rect.mem_set_unit]
  exact Iff.rfl

/-- Every row belongs to the grid point row / 512. -/
theorem cover6 (i : S8192x64.Idx) : ∃ t : Fin cfg0.N, (cfg0.win 6).flush t = true ∧ i ∈ ((cfg0.win 6).blk t).view.set := by
  have hi0 : (i 0).val < 8192 := (i 0).isLt
  have hi1 : (i 1).val < 64 := (i 1).isLt
  have hN : cfg0.N = 16 := N_0
  have ht : (i 0).val / 512 < cfg0.N := by omega
  obtain ⟨-, -, -, -, -, -, -, -, -, -, -, -, e60, e61⟩ := idx_facts ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e60]; show (i 0).val / 512 * 512 ≤ (i 0).val ∧ (i 0).val < (i 0).val / 512 * 512 + 512
    omega
  | ⟨1, _⟩ =>
    show win0_6.index ⟨(i 0).val / 512, ht⟩ (1 : Fin 2) * 64 ≤ (i 1).val ∧ (i 1).val < win0_6.index ⟨(i 0).val / 512, ht⟩ (1 : Fin 2) * 64 + 64
    rw [e61]; omega

/-- The result array after the run is the layer. -/
theorem final (c : Dev nD) : (dats m 0 c).arrAt 6 cfg0.N = G m c :=
  (dats m 0 c).arrAt_eq_of_cover 6 (G m c) (fun t _ => flushed_eq m c t) cover6

/-- The run, read: the result array at the layer of the launch arrays, the arguments unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 rfl (by decide))).trans (V_main_arg3 m c)⟩) (run_main m ρ)

end Cert.KernelIdeal.LayerValue

end
-- ==== Proof.RefIsLayer.lean ====
/-
  The reference program computes the layer.

  Entry (r, o) of the reference's result is

      max ( Σ_{c<128} v1[r,c] · Wᵀ[c,o]  +  b[o] ,  0 ),

  where v1 is x and adj · x laid side by side: v1[r,c] = x[r,c] for c < 64 and v1[r,64+k] = Σ_j adj[r,j] · x[j,k].
  Splitting the sum over the 128 columns into its two halves of 64 gives the layer's own expression:
  the left half meets the first 64 columns of W, the right half the last 64.
-/
import proofs.«108698_g32341103738940_cont_8to1_b_156_5_alg».proof.Proof.Gen.ReferenceIdeal.Read
import proofs.«108698_g32341103738940_cont_8to1_b_156_5_alg».proof.Proof.LayerSpec
noncomputable section
namespace Cert.ReferenceIdeal.RefValue
open Idealize.ShloMosaic Cert.ReferenceIdeal
open Idealize.ShloMosaic.ValueIdx Cert.ReferenceIdeal.Read Cert.ReferenceIdeal.Gen

/-! ## The stages' index maps at an index given by its coordinates -/

/-- The second product reads its left operand at (r, c). -/
theorem lidx_v3_ix2 (r : Fin 8192) (o : Fin 64) (c : Fin 128) : lidx_main_v3 (ix2 r o) c = ix2 r c :=
  funext fun a => Fin.ext (by match a with | ⟨0, _⟩ => rfl | ⟨1, _⟩ => rfl)
/-- The second product reads its right operand at (c, o). -/
theorem ridx_v3_ix2 (r : Fin 8192) (o : Fin 64) (c : Fin 128) : ridx_main_v3 (ix2 r o) c = ix2 c o :=
  funext fun a => Fin.ext (by match a with | ⟨0, _⟩ => rfl | ⟨1, _⟩ => rfl)
/-- The transpose at (c, o) reads W at (o, c). -/
theorem idx_v2_ix2 (c : Fin 128) (o : Fin 64) : idx_main_v2 (ix2 c o) = ix2 o c :=
  funext fun a => Fin.ext (by match a with | ⟨0, _⟩ => rfl | ⟨1, _⟩ => rfl)
/-- The bias spread down the rows reads the one-row bias at (0, o). -/
theorem idx_v5_ix2 (r : Fin 8192) (o : Fin 64) : idx_main_v5 (ix2 r o) = ix2 (0 : Fin 1) o :=
  funext fun a => Fin.ext (by match a with | ⟨0, _⟩ => rfl | ⟨1, _⟩ => rfl)
/-- The one-row bias at (z, o) reads b at o. -/
theorem idx_v4_ix2 (z : Fin 1) (o : Fin 64) : idx_main_v4 (ix2 z o) = ix1 o :=
  funext fun a => Fin.ext (by match a with | ⟨0, _⟩ => rfl)
/-- The first product reads adj at (r, j). -/
theorem lidx_v0_ix2 (r : Fin 8192) (k : Fin 64) (j : Fin 8192) : lidx_main_v0 (ix2 r k) j = ix2 r j :=
  funext fun a => Fin.ext (by match a with | ⟨0, _⟩ => rfl | ⟨1, _⟩ => rfl)
/-- The first product reads x at (j, k). -/
theorem ridx_v0_ix2 (r : Fin 8192) (k : Fin 64) (j : Fin 8192) : ridx_main_v0 (ix2 r k) j = ix2 j k :=
  funext fun a => Fin.ext (by match a with | ⟨0, _⟩ => rfl | ⟨1, _⟩ => rfl)

/-! ## The two halves of x and adj · x laid side by side -/

/-- In the left half (column k < 64) the joined array is x. -/
theorem v1_lo (x0 : (⟨S8192x64, .f32⟩ : BufTy).Contents (Elt Ideal)) (x1 : (⟨S8192x8192, .f32⟩ : BufTy).Contents (Elt Ideal))
    (r : Fin 8192) (k : Fin 64) :
    val_main_v1 (F := Ideal) x0 x1 (ix2 r (GraphLayer.lo k)) = x0 (ix2 r k) := by
  unfold val_main_v1
  exact concatenate_pair_apply_left 1 x0 _ concatenates_S8192x64_S8192x64_S8192x128_d1 _ rfl _ (fun b => by
    match b with
    | ⟨0, _⟩ => rfl
    | ⟨1, _⟩ => rfl)

/-- In the right half (column 64 + k) the joined array is the neighbours' aggregate Σ_j adj[r,j] · x[j,k]. -/
theorem v1_hi (x0 : (⟨S8192x64, .f32⟩ : BufTy).Contents (Elt Ideal)) (x1 : (⟨S8192x8192, .f32⟩ : BufTy).Contents (Elt Ideal))
    (r : Fin 8192) (k : Fin 64) :
    val_main_v1 (F := Ideal) x0 x1 (ix2 r (GraphLayer.hi k)) = GraphLayer.neigh x0 x1 r k := by
  unfold val_main_v1
  refine (concatenate_pair_apply_right 1 x0 _ concatenates_S8192x64_S8192x64_S8192x128_d1 _ rfl rfl (ix2 r k)
    (fun b hb => by
      match b with
      | ⟨0, _⟩ => rfl
      | ⟨1, _⟩ => exact absurd rfl hb)
    (by show k.val + 64 = 64 + k.val; omega)).trans ?_
  rw [val_main_v0_apply]
  unfold GraphLayer.neigh
  refine Finset.sum_congr rfl fun j _ => ?_
  rw [lidx_v0_ix2, ridx_v0_ix2]

/-! ## The whole program -/

/-- The reference's result, as a function of its four arguments, is the layer. -/
theorem ref_eq (x0 : (⟨S8192x64, .f32⟩ : BufTy).Contents (Elt Ideal)) (x1 : (⟨S8192x8192, .f32⟩ : BufTy).Contents (Elt Ideal))
    (x2 : (⟨S64x128, .f32⟩ : BufTy).Contents (Elt Ideal)) (x3 : (⟨S64, .f32⟩ : BufTy).Contents (Elt Ideal)) :
    Cert.ReferenceIdeal.Read.val_main_v7 (F := Ideal) x0 x1 x2 x3 = GraphLayer.layer x0 x1 x2 x3 := by
  funext i
  obtain ⟨r, o, rfl⟩ : ∃ (r : Fin 8192) (o : Fin 64), i = ix2 r o := ⟨i 0, i 1, eq_ix2 i⟩
  -- entry (r, o): max (Σ_{c<128} v1[r,c] · Wᵀ[c,o] + b[o], 0), the sum over c split into its halves
  rw [GraphLayer.layer_ix2, val_main_v7_apply, val_main_v6_apply, val_main_v3_apply, val_main_v5_apply,
    val_main_v4_apply, val_main_call0_v0_apply, val_main_call0_cst_apply, idx_v5_ix2, idx_v4_ix2,
    Ideal.maximumf_def, Ideal.addf_def, Ideal.ofBits_def, GraphLayer.sum_halves]
  unfold GraphLayer.layerAt GraphLayer.affine
  congr 2
  congr 1
  · -- left half: x[r,k] · W[o,k]
    refine Finset.sum_congr rfl fun k _ => ?_
    rw [lidx_v3_ix2, ridx_v3_ix2, v1_lo, val_main_v2_apply, idx_v2_ix2]
  · -- right half: (Σ_j adj[r,j] · x[j,k]) · W[o,64+k]
    refine Finset.sum_congr rfl fun k _ => ?_
    rw [lidx_v3_ix2, ridx_v3_ix2, v1_hi, val_main_v2_apply, idx_v2_ix2]

end Cert.ReferenceIdeal.RefValue
end
-- ==== Proof.lean ====
/-
  The fused graph layer  relu(concat([x, adj · x], −1) · Wᵀ + b)  against its plain reference, over the extended reals.

  The kernel never forms the concatenation. It splits W = [W₁ | W₂] along its 128 columns, so that for node r and
  output feature o

      out[r, o] = max ( Σ_{k<64} x[r,k]·W[o,k]  +  Σ_{k<64} (Σ_{j<8192} adj[r,j]·x[j,k])·W[o,64+k]  +  b[o] ,  0 ),

  and computes that for 512 nodes per grid point, 256 at a time. The reference multiplies the 128-column concatenation
  by Wᵀ: a sum over 128 columns, which is the sum over its left half (where the concatenation holds x) plus the sum
  over its right half (where it holds adj · x). Only the splitting of a finite sum in two is used; no distributivity,
  so the equality holds at every extended real and the finiteness of the inputs is not needed. The narrowing of the
  adjacency block and of x before the first product is the identity on the extended reals.

  The three frames: the two printed kernels (word level and idealized) have the same text and one frame proof serves
  both (the pipelined region over seven windows, two arrays each read through two windows); the reference is a
  straight line of host operations. The idealization rewrote nothing, so there is nothing to preserve.
-/
import proofs.«108698_g32341103738940_cont_8to1_b_156_5_alg».proof.Defs
import proofs.«108698_g32341103738940_cont_8to1_b_156_5_alg».proof.Proof.Gen.Kernel
import proofs.«108698_g32341103738940_cont_8to1_b_156_5_alg».proof.Proof.Gen.KernelIdeal
import proofs.«108698_g32341103738940_cont_8to1_b_156_5_alg».proof.Proof.Gen.ReferenceIdeal
import proofs.«108698_g32341103738940_cont_8to1_b_156_5_alg».proof.Proof.Gen.Pre_finite_inputs
import proofs.«108698_g32341103738940_cont_8to1_b_156_5_alg».proof.Proof.Gen.ReferenceIdeal.Run
import proofs.«108698_g32341103738940_cont_8to1_b_156_5_alg».proof.Proof.Gen.ReferenceIdeal.Read
import proofs.«108698_g32341103738940_cont_8to1_b_156_5_alg».proof.Proof.LayerFrame
import proofs.«108698_g32341103738940_cont_8to1_b_156_5_alg».proof.Proof.LayerFrameBits
import proofs.«108698_g32341103738940_cont_8to1_b_156_5_alg».proof.Proof.LayerValue
import proofs.«108698_g32341103738940_cont_8to1_b_156_5_alg».proof.Proof.RefIsLayer

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.LayerFrame.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.LayerFrame.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their (agreeing) arguments in the result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.LayerValue.G m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v7_eq _ _ _ _).trans (Cert.ReferenceIdeal.RefValue.ref_eq _ _ _ _)).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
